-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x64 : Shape := ⟨3, ![1, 2048, 64]⟩
abbrev S1x3x131072x64 : Shape := ⟨4, ![1, 3, 131072, 64]⟩
abbrev S131072 : Shape := ⟨1, ![131072]⟩
abbrev S1x64 : Shape := ⟨2, ![1, 64]⟩
abbrev S1 : Shape := ⟨1, ![1]⟩
abbrev S_ : Shape := ⟨0, ![]⟩

class Facts : Prop where
  bcast_S_S1x2048x64 : S_.BroadcastsInDim S1x2048x64 (![] : Fin 0 → Fin S1x2048x64.rank)
  reducesTo_S1x2048x64_S_d0_1_2 : S1x2048x64.ReducesTo [0, 1, 2] S_
  h_S_ : 0 < S_.numel
  bcast_S_S1x3x131072x64 : S_.BroadcastsInDim S1x3x131072x64 (![] : Fin 0 → Fin S1x3x131072x64.rank)
  reducesTo_S1x3x131072x64_S_d0_1_2_3 : S1x3x131072x64.ReducesTo [0, 1, 2, 3] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S1x2048x64 .f32) (main_arg1 : FVec F S1x3x131072x64 .f32) (main_arg2 : IVec S131072 32) (main_arg3 : IVec S131072 32) (main_arg4 : FVec F S1x64 .f32) (main_arg5 : FVec F S1 .f32) : IVec S_ 1 :=
  let main_v0 : FVec F S1x2048x64 .f32 := Host.absf main_arg0
  let main_cst : FVec F S_ .f32 := constant S_ .f32 0x7F800000#32
  let main_v1 : FVec F S1x2048x64 .f32 := broadcastInDim S1x2048x64 ![] bcast_S_S1x2048x64 main_cst
  let main_v2 : IVec S1x2048x64 1 := cmpf .olt main_v0 main_v1
  let main_c : IVec S_ 1 := constantI S_ 1 1#1
  let main_v3 : IVec S_ 1 := (fun x v => Host.reduce IntOp.andi x v reducesTo_S1x2048x64_S_d0_1_2 h_S_) main_v2 main_c
  let main_v4 : FVec F S1x3x131072x64 .f32 := Host.absf main_arg1
  let main_cst_0 : FVec F S_ .f32 := constant S_ .f32 0x7F800000#32
  let main_v5 : FVec F S1x3x131072x64 .f32 := broadcastInDim S1x3x131072x64 ![] bcast_S_S1x3x131072x64 main_cst_0
  let main_v6 : IVec S1x3x131072x64 1 := cmpf .olt main_v4 main_v5
  let main_c_1 : IVec S_ 1 := constantI S_ 1 1#1
  let main_v7 : IVec S_ 1 := (fun x v => Host.reduce IntOp.andi x v reducesTo_S1x3x131072x64_S_d0_1_2_3 h_S_) main_v6 main_c_1
  let main_v8 : IVec S_ 1 := andi main_v3 main_v7
  let main_v9 : FVec F S1x64 .f32 := Host.absf main_arg4
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S1x2048x64 : Shape := ⟨3, ![1, 2048, 64]⟩
abbrev S1x3x131072x64 : Shape := ⟨4, ![1, 3, 131072, 64]⟩
abbrev S131072 : Shape := ⟨1, ![131072]⟩
abbrev S1x64 : Shape := ⟨2, ![1, 64]⟩
abbrev S1 : Shape := ⟨1, ![1]⟩
abbrev S1x1x64 : Shape := ⟨3, ![1, 1, 64]⟩
abbrev S1x2048 : Shape := ⟨2, ![1, 2048]⟩
abbrev S3x131072x64 : Shape := ⟨3, ![3, 131072, 64]⟩
abbrev S3x131072 : Shape := ⟨2, ![3, 131072]⟩
abbrev S3x8192x64 : Shape := ⟨3, ![3, 8192, 64]⟩
abbrev S3x8192 : Shape := ⟨2, ![3, 8192]⟩
abbrev S131072x3 : Shape := ⟨2, ![131072, 3]⟩
abbrev S_ : Shape := ⟨0, ![]⟩
abbrev S2048x3 : Shape := ⟨2, ![2048, 3]⟩
abbrev S131072x1 : Shape := ⟨2, ![131072, 1]⟩
abbrev S3x2048 : Shape := ⟨2, ![3, 2048]⟩
abbrev S1x3x2048 : Shape := ⟨3, ![1, 3, 2048]⟩

abbrev nBuf : Space → Nat
  | .hbm => 16
  | .vmem => 9
  | .smem => 0
  | _ => 0

abbrev bufTy : (tb : Table) → Fin (tcTables nBuf tb) → BufTy
  | .hbm, ⟨0, _⟩ => ⟨S1x2048x64, .f32⟩
  | .hbm, ⟨1, _⟩ => ⟨S1x3x131072x64, .f32⟩
  | .hbm, ⟨2, _⟩ => ⟨S131072, .i32⟩
  | .hbm, ⟨3, _⟩ => ⟨S131072, .i32⟩
  | .hbm, ⟨4, _⟩ => ⟨S1x64, .f32⟩
  | .hbm, ⟨5, _⟩ => ⟨S1, .f32⟩
  | .hbm, ⟨6, _⟩ => ⟨S1, .f32⟩
  | .hbm, ⟨7, _⟩ => ⟨S3x131072x64, .f32⟩
  | .hbm, ⟨8, _⟩ => ⟨S3x131072, .f32⟩
  | .hbm, ⟨9, _⟩ => ⟨S131072x3, .f32⟩
  | .hbm, ⟨10, _⟩ => ⟨S_, .f32⟩
  | .hbm, ⟨11, _⟩ => ⟨S2048x3, .f32⟩
  | .hbm, ⟨12, _⟩ => ⟨S131072x1, .i32⟩
  | .hbm, ⟨13, _⟩ => ⟨S2048x3, .f32⟩
  | .hbm, ⟨14, _⟩ => ⟨S3x2048, .f32⟩
  | .hbm, ⟨15, _⟩ => ⟨S1x3x2048, .f32⟩
  | .local _ .vmem, ⟨0, _⟩ => ⟨S1x2048x64, .f32⟩
  | .local _ .vmem, ⟨1, _⟩ => ⟨S1x64, .f32⟩
  | .local _ .vmem, ⟨2, _⟩ => ⟨S1, .f32⟩
  | .local _ .vmem, ⟨3, _⟩ => ⟨S1, .f32⟩
  | .local _ .vmem, ⟨4, _⟩ => ⟨S3x8192x64, .f32⟩
  | .local _ .vmem, ⟨5, _⟩ => ⟨S3x8192x64, .f32⟩
  | .local _ .vmem, ⟨6, _⟩ => ⟨S1x64, .f32⟩
  | .local _ .vmem, ⟨7, _⟩ => ⟨S3x8192, .f32⟩
  | .local _ .vmem, ⟨8, _⟩ => ⟨S3x8192, .f32⟩
  | _, _ => ⟨S1x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S1x2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S3x8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  inb_S1x64_S1x64_0_0 : ∀ a, (![0, 0] : Fin 2 → Nat) a + S1x64.size a ≤ S1x64.size a
  h_S1x64 : 0 < S1x64.numel
  shapeCasts_S1x64_S1x1x64 : S1x64.ShapeCasts S1x1x64
  broadcasts_S1x1x64_S1x2048x64 : S1x1x64.Broadcasts S1x2048x64
  reduces_S1x2048x64_S1x2048 : S1x2048x64.Reduces [2] S1x2048
  reduces_S1x2048_S1 : S1x2048.Reduces [1] S1
  inb_S1_S1_0 : ∀ a, (![0] : Fin 1 → Nat) a + S1.size a ≤ S1.size a
  h_S1 : 0 < S1.numel
  shapeCasts_S1x3x131072x64_S3x131072x64 : S1x3x131072x64.ShapeCasts S3x131072x64
  inb_S3x8192x64_S3x8192x64_0_0_0 : ∀ a, (![0, 0, 0] : Fin 3 → Nat) a + S3x8192x64.size a ≤ S3x8192x64.size a
  h_S3x8192x64 : 0 < S3x8192x64.numel
  shapeCasts_S3x8192x64_S3x8192x64 : S3x8192x64.ShapeCasts S3x8192x64
  broadcasts_S1x1x64_S3x8192x64 : S1x1x64.Broadcasts S3x8192x64
  reduces_S3x8192x64_S3x8192 : S3x8192x64.Reduces [2] S3x8192
  inb_S3x8192_S3x8192_0_0 : ∀ a, (![0, 0] : Fin 2 → Nat) a + S3x8192.size a ≤ S3x8192.size a
  h_S3x8192 : 0 < S3x8192.numel
  transposes_S3x131072_S131072x3_1_0 : S3x131072.Transposes [1, 0] S131072x3
  bcast_S_S2048x3 : S_.BroadcastsInDim S2048x3 (![] : Fin 0 → Fin S2048x3.rank)
  bcast_S131072_S131072x1_0 : S131072.BroadcastsInDim S131072x1 (![0] : Fin 1 → Fin S131072x1.rank)
  transposes_S2048x3_S3x2048_1_0 : S2048x3.Transposes [1, 0] S3x2048
  bcast_S3x2048_S1x3x2048_1_2 : S3x2048.BroadcastsInDim S1x3x2048 (![1, 2] : Fin 2 → Fin S1x3x2048.rank)
  scatter_S2048x3_S131072x1_S131072x3_1_0_0_1_wf : ScatterDims.WF S2048x3 S131072x1 S131072x3 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S1x2048x64.size a
  hwx0_0 : ∀ i : grid0.Coords, EltTy.bits .f32 = 32 ∨ (Rect.block (s := S1x2048x64) S1x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x8192x64.size a ≤ S3x131072x64.size a
  hwx1_0 : ∀ i : grid1.Coords, EltTy.bits .f32 = 32 ∨ (Rect.block (s := S3x131072x64) S3x8192x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x8192.size a ≤ S3x131072.size a
  hwx1_2 : ∀ i : grid1.Coords, EltTy.bits .f32 = 32 ∨ (Rect.block (s := S3x131072) S3x8192.size (cc1_transform_2 i) (hinb1_2 i)).WholeWords (EltTy.packing .f32)

variable [Facts₀]

def scatter_S2048x3_S131072x1_S131072x3_1_0_0_1 : ScatterDims S2048x3 S131072x1 S131072x3 where
  updateWindowDims := [1]
  insertedWindowDims := [0]
  scatterDimsToOperandDims := [0]
  indexVectorDim := 1
  wf := scatter_S2048x3_S131072x1_S131072x3_1_0_0_1_wf

abbrev win0_0 : Pipeline.Window sig grid0 :=
  Pipeline.Window.ofSpec (Memref.whole main_arg0) S1x2048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S3x8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S3x8192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x2048x64 : Shape := ⟨3, ![1, 2048, 64]⟩
abbrev S1x3x131072x64 : Shape := ⟨4, ![1, 3, 131072, 64]⟩
abbrev S131072 : Shape := ⟨1, ![131072]⟩
abbrev S1x64 : Shape := ⟨2, ![1, 64]⟩
abbrev S1 : Shape := ⟨1, ![1]⟩
abbrev S1x1x64 : Shape := ⟨3, ![1, 1, 64]⟩
abbrev S_ : Shape := ⟨0, ![]⟩
abbrev S1x1x1x64 : Shape := ⟨4, ![1, 1, 1, 64]⟩
abbrev S1x3x131072 : Shape := ⟨3, ![1, 3, 131072]⟩
abbrev S3x131072 : Shape := ⟨2, ![3, 131072]⟩
abbrev S131072x3 : Shape := ⟨2, ![131072, 3]⟩
abbrev S2048x3 : Shape := ⟨2, ![2048, 3]⟩
abbrev S131072x1 : Shape := ⟨2, ![131072, 1]⟩
abbrev S3x2048 : Shape := ⟨2, ![3, 2048]⟩
abbrev S1x3x2048 : Shape := ⟨3, ![1, 3, 2048]⟩

abbrev nBuf : Space → Nat
  | .hbm => 29
  | .vmem => 0
  | .smem => 0
  | _ => 0

abbrev bufTy : (tb : Table) → Fin (tcTables nBuf tb) → BufTy
  | .hbm, ⟨0, _⟩ => ⟨S1x2048x64, .f32⟩
  | .hbm, ⟨1, _⟩ => ⟨S1x3x131072x64, .f32⟩
  | .hbm, ⟨2, _⟩ => ⟨S131072, .i32⟩
  | .hbm, ⟨3, _⟩ => ⟨S131072, .i32⟩
  | .hbm, ⟨4, _⟩ => ⟨S1x64, .f32⟩
  | .hbm, ⟨5, _⟩ => ⟨S1, .f32⟩
  | .hbm, ⟨6, _⟩ => ⟨S1x1x64, .f32⟩
  | .hbm, ⟨7, _⟩ => ⟨S1x2048x64, .f32⟩
  | .hbm, ⟨8, _⟩ => ⟨S1x2048x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S1x1x1x64, .f32⟩
  | .hbm, ⟨16, _⟩ => ⟨S1x3x131072x64, .f32⟩
  | .hbm, ⟨17, _⟩ => ⟨S1x3x131072x64, .f32⟩
  | .hbm, ⟨18, _⟩ => ⟨S_, .f32⟩
  | .hbm, ⟨19, _⟩ => ⟨S1x3x131072, .f32⟩
  | .hbm, ⟨20, _⟩ => ⟨S1x3x131072, .f32⟩
  | .hbm, ⟨21, _⟩ => ⟨S3x131072, .f32⟩
  | .hbm, ⟨22, _⟩ => ⟨S131072x3, .f32⟩
  | .hbm, ⟨23, _⟩ => ⟨S_, .f32⟩
  | .hbm, ⟨24, _⟩ => ⟨S2048x3, .f32⟩
  | .hbm, ⟨25, _⟩ => ⟨S131072x1, .i32⟩
  | .hbm, ⟨26, _⟩ => ⟨S2048x3, .f32⟩
  | .hbm, ⟨27, _⟩ => ⟨S3x2048, .f32⟩
  | .hbm, ⟨28, _⟩ => ⟨S1x3x2048, .f32⟩
  | _, _ => ⟨S1x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S1x64_S1x1x64_1_2 : S1x64.BroadcastsInDim S1x1x64 (![1, 2] : Fin 2 → Fin S1x1x64.rank)
  bcast_S1x1x64_S1x2048x64_0_1_2 : S1x1x64.BroadcastsInDim S1x2048x64 (![0, 1, 2] : Fin 3 → Fin S1x2048x64.rank)
  reducesTo_S1x2048x64_S_d0_1_2 : S1x2048x64.ReducesTo [0, 1, 2] S_
  h_S_ : 0 < S_.numel
  bcast_S_S1 : S_.BroadcastsInDim S1 (![] : Fin 0 → Fin S1.rank)
  bcast_S1x64_S1x1x1x64_2_3 : S1x64.BroadcastsInDim S1x1x1x64 (![2, 3] : Fin 2 → Fin S1x1x1x64.rank)
  bcast_S1x1x1x64_S1x3x131072x64_0_1_2_3 : S1x1x1x64.BroadcastsInDim S1x3x131072x64 (![0, 1, 2, 3] : Fin 4 → Fin S1x3x131072x64.rank)
  reducesTo_S1x3x131072x64_S1x3x131072_d3 : S1x3x131072x64.ReducesTo [3] S1x3x131072
  shapeCasts_S1x3x131072_S3x131072 : S1x3x131072.ShapeCasts S3x131072
  transposes_S3x131072_S131072x3_1_0 : S3x131072.Transposes [1, 0] S131072x3
  bcast_S_S2048x3 : S_.BroadcastsInDim S2048x3 (![] : Fin 0 → Fin S2048x3.rank)
  bcast_S131072_S131072x1_0 : S131072.BroadcastsInDim S131072x1 (![0] : Fin 1 → Fin S131072x1.rank)
  transposes_S2048x3_S3x2048_1_0 : S2048x3.Transposes [1, 0] S3x2048
  bcast_S3x2048_S1x3x2048_1_2 : S3x2048.BroadcastsInDim S1x3x2048 (![1, 2] : Fin 2 → Fin S1x3x2048.rank)
  scatter_S2048x3_S131072x1_S131072x3_1_0_0_1_wf : ScatterDims.WF S2048x3 S131072x1 S131072x3 [1] [0] [0] 1

variable [Facts₀]

def scatter_S2048x3_S131072x1_S131072x3_1_0_0_1 : ScatterDims S2048x3 S131072x1 S131072x3 where
  updateWindowDims := [1]
  insertedWindowDims := [0]
  scatterDimsToOperandDims := [0]
  indexVectorDim := 1
  wf := scatter_S2048x3_S131072x1_S131072x3_1_0_0_1_wf

class Facts : Prop extends Facts₀ where

variable [Facts]
-- ==== Proof.Fold.lean ====
/-
  The buffer contents at the program's last boundary, read at the two results, walked back through the fold of host
  stretches and regions:

  * the energy's buffer is written by the first region only, and nothing after it touches it, so it ends at what
    that region's one write-back leaves;
  * the force buffer is the last host stretch's chain — transpose, scatter-add onto the atoms by the neighbour
    index, transpose, a leading unit axis — applied to what the second region's sixteen write-backs leave and to
    the neighbour indices as launched;
  * the second region finds, in its first window's array, the derivatives with their leading unit axis dropped (the
    one host operation between the regions), and in its second the weights as launched; the first region finds
    every argument as launched.
-/
import proofs.«100715_j1975684956439_1_alg».proof.Proof.Gen.KernelIdeal.Frame
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.Sem

variable {F : FTy → Type} [FloatOps F]

/-- The host operations after the second region, as one function of the neighbour indices and of the per-pair
    forces: the forces with pairs along the rows, added row by row onto a zero `2048 × 3` array at the row each
    pair's index names, then components along the rows again and a leading unit axis. -/
def hostTail (idx : (⟨S131072, .i32⟩ : BufTy).Contents (Elt F)) (f : (⟨S3x131072, .f32⟩ : BufTy).Contents (Elt F)) :
    (⟨S1x3x2048, .f32⟩ : BufTy).Contents (Elt F) :=
  broadcastInDim S1x3x2048 ![1, 2] bcast_S3x2048_S1x3x2048_1_2
    (transpose S3x2048 [1, 0]
      (Host.scatterAdd scatter_S2048x3_S131072x1_S131072x3_1_0_0_1
        (broadcastInDim S2048x3 ![] bcast_S_S2048x3 (constant S_ .f32 0x00000000#32))
        (broadcastInDim S131072x1 ![0] bcast_S131072_S131072x1_0 idx)
        (transpose S131072x3 [1, 0] f transposes_S3x131072_S131072x3_1_0))
      transposes_S2048x3_S3x2048_1_0)

variable (m : (ℓ : Loc nD τ sig) → Buf (Elt F) ℓ) (ρ : Dev nD → PrngReg)

/-- The energy's buffer at the last boundary is what the first region's write-back leaves in it. -/
theorem W4_main_v0 (c : Dev nD) : W4 m ρ c (Proc.devRef .tc main_v0) = (dat0 (V0 m ρ) c).arrAt 3 cfg0.N :=
  calc W4 m ρ c (Proc.devRef .tc main_v0)
    _ = W3 m ρ c (Proc.devRef .tc main_v0) := StableHlo.after_of_forall_not_mem (b := Proc.devRef .tc main_v0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v0) := W3_of_ne m ρ c main_v0 (by decide)
    _ = W1 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V0 m ρ) c).arrAt 3 cfg0.N := W1_arr m ρ c 3

/-- The neighbour indices are as launched when the last host stretch reads them. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

/-- The force buffer at the last boundary: the host chain of the launched neighbour indices and of what the second
    region's write-backs leave. -/
theorem W4_main_v8 (c : Dev nD) : W4 m ρ c (Proc.devRef .tc main_v8)
    = hostTail (m ((c : Thread nD τ).loc main_arg3)) ((dat1 (V2 m ρ) c).arrAt 2 cfg1.N) := by
  rw [← W3_main_arg3 m ρ c, ← W3_arr m ρ c 2]
  unfold hostTail
  show StableHlo.after hostOps2 (W3 m ρ c) (Proc.devRef .tc main_v8) = _
  after_results <;> rfl

/-- The second region's first array: the derivatives as launched, their leading unit axis dropped. -/
theorem V2_main_v1 (c : Dev nD) : V2 m ρ c main_v1
    = shapeCast S3x131072x64 (m ((c : Thread nD τ).loc main_arg1)) shapeCasts_S1x3x131072x64_S3x131072x64 := by
  show StableHlo.after hostOps1 (W1 m ρ c) (Proc.devRef .tc main_v1) = _
  after_results
  rw [W1_of_ne m ρ c main_arg1 (by decide)]
  rfl

/-- The second region's second array: the weights as launched. -/
theorem V2_main_arg4 (c : Dev nD) : V2 m ρ c main_arg4 = m ((c : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := (W1_arr m ρ c 1).trans (((dat0 (V0 m ρ) c).arrAt_in 1 rfl _).trans (A_eq0 (V0 m ρ) c 1))
    _ = m ((c : Thread nD τ).loc main_arg4) := rfl

end Cert.KernelIdeal.Named

end
-- ==== Proof.Spec.lean ====
/-
  What the two programs compute, as functions of the argument arrays over the extended reals, and the two small
  facts that join their arrangements.

  * `energy c w b`: the sum over every atom `n` and descriptor `d` of `c[0, n, d] · w[0, d]`, divided by the
    number of atoms (the literal 2048.0), plus the bias.
  * `force x w`: at component `a` and pair `p`, minus the sum over the 64 descriptors `k` of `x[a, p, k] · w[0, k]`.
    Stated for any extents `A × B`, so that one block of pairs and the whole array are instances of one definition.
  * A sum over every index of a shape is the sum over the indices with one axis dropped of the sum along that axis
    (only commutativity and associativity of the sum: no finiteness is used anywhere).
  * The row of weights, given a leading unit axis and repeated along the two leading axes, read at an index, is the
    weight of that index's descriptor.
-/
import Idealize.ShloMosaic.PureOps.Ideal.Laws
import Idealize.ShloMosaic.Lib.ValueIdx
import Idealize.ShloMosaic.Lib.Pipeline.Value

noncomputable section

open scoped BigOperators

namespace Cert.Forces

open Idealize.ShloMosaic Idealize.ShloMosaic.ValueIdx

/-- Entry `k` of the one row of weights. -/
abbrev wIdx (k : Nat) (hk : k < 64) : (⟨2, ![1, 64]⟩ : Shape).Idx := fun a => match a with
  | ⟨0, _⟩ => ⟨0, Nat.one_pos⟩
  | ⟨1, _⟩ => ⟨k, hk⟩

/-- Descriptor `k` of the entry `i` of a two-axis array: `i` with `k` appended. -/
abbrev dIdx {A B : Nat} (i : (⟨2, ![A, B]⟩ : Shape).Idx) (k : Nat) (hk : k < 64) : (⟨3, ![A, B, 64]⟩ : Shape).Idx :=
  fun a => match a with
  | ⟨0, _⟩ => ⟨(i 0).val, (i 0).isLt⟩
  | ⟨1, _⟩ => ⟨(i 1).val, (i 1).isLt⟩
  | ⟨2, _⟩ => ⟨k, hk⟩

/-- The energy per atom: the weighted sum of every coefficient, over the number of atoms, plus the bias. -/
def energy (c : FVec Ideal ⟨3, ![1, 2048, 64]⟩ .f32) (w : FVec Ideal ⟨2, ![1, 64]⟩ .f32) (b : FVec Ideal ⟨1, ![1]⟩ .f32) :
    FVec Ideal ⟨1, ![1]⟩ .f32 :=
  fun i => Ideal.div (∑ j : (⟨3, ![1, 2048, 64]⟩ : Shape).Idx, c j * w (wIdx (j 2).val (j 2).isLt))
    (Ideal.ofBits .f32 0x45000000#32) + b i

/-- The force contribution of each pair, component by component: minus the weighted sum of its 64 derivatives. -/
def force {A B : Nat} (x : FVec Ideal ⟨3, ![A, B, 64]⟩ .f32) (w : FVec Ideal ⟨2, ![1, 64]⟩ .f32) : FVec Ideal ⟨2, ![A, B]⟩ .f32 :=
  fun i => -(∑ k : Fin 64, x (dIdx i k.val k.isLt) * w (wIdx k.val k.isLt))

/-- A total sum, regrouped: first along one axis, then over what is left. -/
theorem sum_eq_sum_lift {α : Type} [AddCommMonoid α] {s t : Shape} {a : Fin s.rank} (h : s.Reduces [a] t) (x : s.Idx → α) :
    ∑ i : s.Idx, x i = ∑ q : t.Idx, ∑ k : Fin (s.size a), x (h.lift q k) := by
  rw [← Finset.sum_fiberwise Finset.univ h.drop x]
  exact Finset.sum_congr rfl fun q _ => h.sum_filter_drop_single x q

/-- A sum along one axis followed by a sum of everything left, both from the zero pattern, is the sum of every entry. -/
theorem sum_then_sum_all {φ : FTy} {s t u : Shape} {a : Fin s.rank} {axes : List (Fin t.rank)} (src : FVec Ideal s φ)
    (acc : BitVec φ.bits) (h1 : s.Reduces [a] t) (h2 : t.Reduces axes u) (hu : ∀ b, u.size b = 1)
    (hφ : FKind.Formats φ) (hacc : acc = FKind.add.neutral φ hφ) (j : u.Idx) :
    multiReduction .add axes u (multiReduction .add [a] t src acc h1 hφ hacc) acc h2 hφ hacc j = ∑ i : s.Idx, src i :=
  (Ideal.multiReduction_add_total _ acc h2 hu hφ hacc j).trans
    ((Finset.sum_congr rfl fun q _ => Ideal.multiReduction_add_single src acc h1 hφ hacc q).trans
      (sum_eq_sum_lift h1 src).symm)

/-- The weights' row with a unit axis put in front and then repeated along the two leading axes: at an index it is the
    weight of the index's last coordinate. -/
theorem weight_row_apply {α : Type} {A B : Nat} (w : (⟨2, ![1, 64]⟩ : Shape).Idx → α)
    (h1 : (⟨2, ![1, 64]⟩ : Shape).ShapeCasts ⟨3, ![1, 1, 64]⟩) (h2 : (⟨3, ![1, 1, 64]⟩ : Shape).Broadcasts ⟨3, ![A, B, 64]⟩)
    (j : (⟨3, ![A, B, 64]⟩ : Shape).Idx) :
    broadcastTo ⟨3, ![A, B, 64]⟩ (shapeCast ⟨3, ![1, 1, 64]⟩ w h1) h2 j = w (wIdx (j 2).val (j 2).isLt) := by
  rw [broadcastTo_apply _ h2 j (fun a => match a with
      | ⟨0, _⟩ => ⟨0, Nat.one_pos⟩ | ⟨1, _⟩ => ⟨0, Nat.one_pos⟩ | ⟨2, _⟩ => ⟨(j 2).val, (j 2).isLt⟩) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show (j 2).val = if (64 : Nat) = 1 then 0 else (j 2).val; rw [if_neg (by decide)])]
  exact shapeCast_apply w h1 _ _ (by
    rw [Shape.rowMajor_val_two, Shape.rowMajor_val_three]
    show 0 * 64 + (j 2).val = (0 * 1 + 0) * 64 + (j 2).val
    omega)

/-- Zero offsets, however many axes, spelt as the constant function. -/
theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- Subtracting from zero is negating, at every extended real, the infinities included. -/
theorem zero_sub_ereal (x : EReal) : (0 : EReal) - x = -x := zero_sub x

end Cert.Forces

end
-- ==== Proof.Payload.lean ====
/-
  The two kernel bodies' arithmetic, as functions of the blocks they load, are the specification's functions:

  * the first body multiplies every coefficient by its descriptor's weight, sums along the descriptors and then
    along the atoms, divides by 2048.0 and adds the bias: the total weighted sum regrouped;
  * the second multiplies a block of derivatives by the weights, sums along the descriptors and subtracts the sum
    from zero: minus the weighted sum, at every extended real.
-/
import proofs.«100715_j1975684956439_1_alg».proof.Proof.Gen.KernelIdeal.Skeleton
import proofs.«100715_j1975684956439_1_alg».proof.Proof.Spec

noncomputable section

open scoped BigOperators

namespace Cert.KernelIdeal.Named

open Cert.KernelIdeal Cert.KernelIdeal.Gen Cert.Forces
open Idealize.ShloMosaic Idealize.ShloMosaic.ValueIdx

/-- The first body's stored value is the energy of the blocks it loads. -/
theorem energy_payload (x0 : FVec Ideal S1x2048x64 .f32) (x1 : FVec Ideal S1x64 .f32) (x2 : FVec Ideal S1 .f32) :
    k0_pay1 (F := Ideal) x0 x1 x2 = energy x0 x1 x2 := by
  funext i
  have hsum := sum_then_sum_all (φ := .f32) (mulf x0 (broadcastTo S1x2048x64 (shapeCast S1x1x64 x1 shapeCasts_S1x64_S1x1x64) broadcasts_S1x1x64_S1x2048x64))
    0x00000000#32 reduces_S1x2048x64_S1x2048 reduces_S1x2048_S1 (by decide) (.inl rfl) rfl i
  unfold k0_pay1 energy
  show Ideal.div (multiReduction (F := Ideal) .add [1] S1 (multiReduction (F := Ideal) .add [2] S1x2048 (mulf x0 (broadcastTo S1x2048x64 (shapeCast S1x1x64 x1 shapeCasts_S1x64_S1x1x64) broadcasts_S1x1x64_S1x2048x64))
      0x00000000#32 reduces_S1x2048x64_S1x2048 (.inl rfl) rfl) 0x00000000#32 reduces_S1x2048_S1 (.inl rfl) rfl i)
      (Ideal.ofBits .f32 0x45000000#32) + x2 i = _
  rw [hsum]
  refine congrArg (fun z => Ideal.div z (Ideal.ofBits .f32 0x45000000#32) + x2 i) ?_
  refine Finset.sum_congr rfl fun j _ => ?_
  exact congrArg (x0 j * ·) (weight_row_apply x1 shapeCasts_S1x64_S1x1x64 broadcasts_S1x1x64_S1x2048x64 j)

/-- The second body's stored value is the force of the block of derivatives it loads. -/
theorem force_payload (x0 : FVec Ideal S3x8192x64 .f32) (x1 : FVec Ideal S1x64 .f32) :
    k1_pay1 (F := Ideal) x0 x1 = force x0 x1 := by
  funext i
  unfold k1_pay1 force
  show Ideal.ofBits .f32 0x00000000#32 - multiReduction (F := Ideal) .add [2] S3x8192 (mulf (shapeCast S3x8192x64 x0 shapeCasts_S3x8192x64_S3x8192x64) (broadcastTo S3x8192x64 (shapeCast S1x1x64 x1 shapeCasts_S1x64_S1x1x64) broadcasts_S1x1x64_S3x8192x64))
      0x00000000#32 reduces_S3x8192x64_S3x8192 (.inl rfl) rfl i = -_
  rw [Ideal.ofBits_zero_f32, zero_sub_ereal]
  refine congrArg Neg.neg ?_
  refine (Ideal.multiReduction_add_single (φ := .f32) (mulf (shapeCast S3x8192x64 x0 shapeCasts_S3x8192x64_S3x8192x64) (broadcastTo S3x8192x64 (shapeCast S1x1x64 x1 shapeCasts_S1x64_S1x1x64) broadcasts_S1x1x64_S3x8192x64)) 0x00000000#32 reduces_S3x8192x64_S3x8192 (.inl rfl) rfl i).trans ?_
  refine Finset.sum_congr rfl fun k _ => ?_
  show shapeCast S3x8192x64 x0 shapeCasts_S3x8192x64_S3x8192x64 (reduces_S3x8192x64_S3x8192.lift i k)
      * broadcastTo S3x8192x64 (shapeCast S1x1x64 x1 shapeCasts_S1x64_S1x1x64) broadcasts_S1x1x64_S3x8192x64 (reduces_S3x8192x64_S3x8192.lift i k) = _
  rw [shapeCast_self, weight_row_apply]
  have e : reduces_S3x8192x64_S3x8192.lift i k = dIdx i k.val k.isLt :=
    funext fun a => Fin.ext (by match a with | ⟨0, _⟩ => rfl | ⟨1, _⟩ => rfl | ⟨2, _⟩ => rfl)
  rw [e]

end Cert.KernelIdeal.Named

end
-- ==== Proof.Region0.lean ====
/-
  The first region, whatever it is entered with: its grid is one point and every window's block is its whole
  array, so the one write-back leaves in the energy's buffer the energy of the coefficients, the weights and the
  bias as the region finds them.
-/
import proofs.«100715_j1975684956439_1_alg».proof.Proof.Gen.KernelIdeal.Frame
import proofs.«100715_j1975684956439_1_alg».proof.Proof.Payload

set_option maxRecDepth 16384

noncomputable section

open scoped BigOperators

namespace Cert.KernelIdeal.Named

open Cert.KernelIdeal Cert.KernelIdeal.Gen Cert.Forces
open Idealize.ShloMosaic Idealize.ShloMosaic.TcCoe Idealize.ShloMosaic.ValueIdx
open Idealize.SL Idealize.SL.Sem
open Idealize.ShloMosaic.Pipeline (Dat)

-- the buffer contents the region is entered with: any
variable (V : (c : Dev nD) → (b : Ref sig .tc) → Buf (Elt Ideal) ((c : Thread nD τ).loc b))

/-- Every window's block index is zero on every axis, at the grid's one point. -/
theorem index_zero0 : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0 ∧ win0_3.index t (0 : Fin 1) = 0 :=
  (by decide +kernel : ∀ t : Fin grid0.N, _)

/-- The coefficients' block is the whole array. -/
theorem block0_coeffs (c : Dev nD) (t : Fin cfg0.N) : iblk0 V c 0 t = V c main_arg0 := by
  obtain ⟨e0, e1, e2, -⟩ := index_zero0 t
  funext y
  show V c main_arg0 (((cfg0.win 0).blk t).view.emb y) = V c main_arg0 y
  refine congrArg _ (funext fun a => Fin.ext ?_)
  match a with
  | ⟨0, _⟩ => show win0_0.index t (0 : Fin 3) * 1 + 1 * (y 0).val = (y 0).val; omega
  | ⟨1, _⟩ => show win0_0.index t (1 : Fin 3) * 2048 + 1 * (y 1).val = (y 1).val; omega
  | ⟨2, _⟩ => show win0_0.index t (2 : Fin 3) * 64 + 1 * (y 2).val = (y 2).val; omega

/-- The weights' block is the whole row. -/
theorem block0_weights (c : Dev nD) (t : Fin cfg0.N) : iblk0 V c 1 t = V c main_arg4 := by
  obtain ⟨-, -, -, e0, e1, -⟩ := index_zero0 t
  funext y
  show V c main_arg4 (((cfg0.win 1).blk t).view.emb y) = V c main_arg4 y
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 64 + 1 * (y 1).val = (y 1).val; omega

/-- The bias's block is the bias. -/
theorem block0_bias (c : Dev nD) (t : Fin cfg0.N) : iblk0 V c 2 t = V c main_arg5 := by
  obtain ⟨-, -, -, -, -, e0, -⟩ := index_zero0 t
  funext y
  show V c main_arg5 (((cfg0.win 2).blk t).view.emb y) = V c main_arg5 y
  refine congrArg _ (funext fun a => Fin.ext ?_)
  match a with
  | ⟨0, _⟩ => show win0_2.index t (0 : Fin 1) * 1 + 1 * (y 0).val = (y 0).val; omega

/-- What the point writes back is its block of the energy of the arrays as found. -/
theorem written0 (c : Dev nD) (t : Fin cfg0.N) :
    (dat0 V c).flushed 3 t = ((cfg0.win 3).blk t).view.read (Elt Ideal) (energy (V c main_arg0) (V c main_arg4) (V c main_arg5)) := by
  show (cfg0.win 3).cut (grid0.coords t) ((dat0 V c).after 3 t) = _
  rw [after0_3]
  unfold out0_3
  rw [View.canon_unit_zero zeros1]
  simp only [View.ld_unit_zero (S := S1x2048x64) zeros3, View.ld_unit_zero (S := S1x64) zeros2, View.ld_unit_zero (S := S1) zeros1]
  rw [block0_coeffs, block0_weights, block0_bias, energy_payload]
  obtain ⟨-, -, -, -, -, -, e0⟩ := index_zero0 t
  funext j
  show energy (V c main_arg0) (V c main_arg4) (V c main_arg5) j
    = energy (V c main_arg0) (V c main_arg4) (V c main_arg5) (((cfg0.win 3).blk t).view.emb j)
  refine congrArg _ (funext fun a => Fin.ext ?_)
  match a with
  | ⟨0, _⟩ => show (j 0).val = win0_3.index t (0 : Fin 1) * 1 + 1 * (j 0).val; omega

/-- An index of the energy's buffer is in the point's block iff its coordinate is in the block's range. -/
theorem mem_block0 (t : Fin cfg0.N) (i : S1.Idx) :
    i ∈ ((cfg0.win 3).blk t).view.set ↔ ∀ a : Fin 1, win0_3.index t a * S1.size a ≤ (i a).val ∧ (i a).val < win0_3.index t a * S1.size a + S1.size a := by
  show i ∈ ((View.whole main_v0).slice (win0_3.rect t)).set ↔ _
  rw [View.set_slice_whole, Rect.mem_set_unit]
  exact Iff.rfl

/-- The one block covers the buffer. -/
theorem covered0 (i : S1.Idx) : ∃ t : Fin cfg0.N, (cfg0.win 3).flush t = true ∧ i ∈ ((cfg0.win 3).blk t).view.set := by
  refine ⟨t0_0, flush0_3 t0_0, ?_⟩
  rw [mem_block0]
  obtain ⟨-, -, -, -, -, -, e0⟩ := index_zero0 t0_0
  have hi : (i 0).val < 1 := (i 0).isLt
  intro a
  match a with
  | ⟨0, _⟩ => show win0_3.index t0_0 (0 : Fin 1) * 1 ≤ (i 0).val ∧ (i 0).val < win0_3.index t0_0 (0 : Fin 1) * 1 + 1; omega

/-- The energy's buffer after the region: the energy of the three arrays as the region found them. -/
theorem final0 (c : Dev nD) :
    (dat0 V c).arrAt 3 cfg0.N = energy (V c main_arg0) (V c main_arg4) (V c main_arg5) :=
  (dat0 V c).arrAt_eq_of_cover 3 (energy (V c main_arg0) (V c main_arg4) (V c main_arg5)) (fun t _ => written0 V c t) covered0

end Cert.KernelIdeal.Named

end
-- ==== Proof.Region1.lean ====
/-
  The second region, whatever it is entered with: point `t` of its sixteen loads the pairs `8192·t … 8192·t + 8191` of
  the derivatives (all three components, all 64 descriptors) and the whole row of weights, and writes back the force
  of that block into the same pairs of the force buffer. The sixteen blocks tile the buffer, so it ends at the force
  of the whole array of derivatives.
-/
import proofs.«100715_j1975684956439_1_alg».proof.Proof.Gen.KernelIdeal.Frame
import proofs.«100715_j1975684956439_1_alg».proof.Proof.Payload

set_option maxRecDepth 16384

noncomputable section

open scoped BigOperators

namespace Cert.KernelIdeal.Named

open Cert.KernelIdeal Cert.KernelIdeal.Gen Cert.Forces
open Idealize.ShloMosaic Idealize.ShloMosaic.TcCoe Idealize.ShloMosaic.ValueIdx
open Idealize.SL Idealize.SL.Sem
open Idealize.ShloMosaic.Pipeline (Dat)

-- the buffer contents the region is entered with: any
variable (V : (c : Dev nD) → (b : Ref sig .tc) → Buf (Elt Ideal) ((c : Thread nD τ).loc b))

/-- The block indices over the grid: the derivatives' and the forces' blocks move together along the pairs, the
    weights' stays. -/
theorem index_facts1 : ∀ t : Fin cfg1.N,
    win1_0.index t (0 : Fin 3) = 0 ∧ win1_0.index t (1 : Fin 3) = win1_2.index t (1 : Fin 2) ∧ win1_0.index t (2 : Fin 3) = 0
    ∧ win1_1.index t (0 : Fin 2) = 0 ∧ win1_1.index t (1 : Fin 2) = 0
    ∧ win1_2.index t (0 : Fin 2) = 0 ∧ win1_2.index t (1 : Fin 2) ≤ 15 :=
  (by decide +kernel : ∀ t : Fin grid1.N, _)

/-- Every one of the sixteen blocks of pairs is some point's. -/
theorem index_onto1 : ∀ q : Fin 16, ∃ t : Fin cfg1.N, win1_2.index t = ![0, q.val] :=
  (by decide +kernel : ∀ q : Fin 16, ∃ t : Fin grid1.N, win1_2.index t = ![0, q.val])

/-- The weights' block is the whole row. -/
theorem block1_weights (c : Dev nD) (t : Fin cfg1.N) : iblk1 V c 1 t = V c main_arg4 := by
  obtain ⟨-, -, -, e0, e1, -⟩ := index_facts1 t
  funext y
  show V c main_arg4 (((cfg1.win 1).blk t).view.emb y) = V c main_arg4 y
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- Descriptor `k` of entry `y` of the derivatives' block at point `t` is descriptor `k` of the array's entry that `y`
    is in the forces' block at `t`. -/
theorem block1_derivs (c : Dev nD) (t : Fin cfg1.N) (y : S3x8192.Idx) (k : Nat) (hk : k < 64) :
    iblk1 V c 0 t (dIdx y k hk) = V c main_v1 (dIdx (((cfg1.win 2).blk t).view.emb y) k hk) := by
  obtain ⟨e0, e1, e2, -, -, e3, -⟩ := index_facts1 t
  show V c main_v1 (((cfg1.win 0).blk t).view.emb (dIdx y k hk)) = _
  refine congrArg _ (funext fun a => Fin.ext ?_)
  match a with
  | ⟨0, _⟩ => show win1_0.index t (0 : Fin 3) * 3 + 1 * (y 0).val = win1_2.index t (0 : Fin 2) * 3 + 1 * (y 0).val; omega
  | ⟨1, _⟩ => show win1_0.index t (1 : Fin 3) * 8192 + 1 * (y 1).val = win1_2.index t (1 : Fin 2) * 8192 + 1 * (y 1).val; omega
  | ⟨2, _⟩ => show win1_0.index t (2 : Fin 3) * 64 + 1 * k = k; omega

/-- What point `t` writes back is its block of the force of the arrays as found. -/
theorem written1 (c : Dev nD) (t : Fin cfg1.N) :
    (dat1 V c).flushed 2 t = ((cfg1.win 2).blk t).view.read (Elt Ideal) (force (V c main_v1) (V c main_arg4)) := by
  show (cfg1.win 2).cut (grid1.coords t) ((dat1 V c).after 2 t) = _
  rw [after1_2]
  unfold out1_2
  rw [View.canon_unit_zero zeros2]
  simp only [View.ld_unit_zero (S := S3x8192x64) zeros3, View.ld_unit_zero (S := S1x64) zeros2]
  rw [block1_weights, force_payload]
  funext y
  show force (iblk1 V c 0 t) (V c main_arg4) y = force (V c main_v1) (V c main_arg4) (((cfg1.win 2).blk t).view.emb y)
  unfold force
  refine congrArg Neg.neg (Finset.sum_congr rfl fun k _ => ?_)
  rw [block1_derivs V c t y k.val k.isLt]

/-- An index of the force buffer is in point `t`'s block iff each coordinate is in the block's range on its axis. -/
theorem mem_block1 (t : Fin cfg1.N) (i : S3x131072.Idx) :
    i ∈ ((cfg1.win 2).blk t).view.set ↔ ∀ a : Fin 2, win1_2.index t a * S3x8192.size a ≤ (i a).val ∧ (i a).val < win1_2.index t a * S3x8192.size a + S3x8192.size a := by
  show i ∈ ((View.whole main_v2).slice (win1_2.rect t)).set ↔ _
  rw [View.set_slice_whole, Rect.mem_set_unit]
  exact Iff.rfl

/-- Every pair is in the block of the point its index divided by 8192 names. -/
theorem covered1 (i : S3x131072.Idx) : ∃ t : Fin cfg1.N, (cfg1.win 2).flush t = true ∧ i ∈ ((cfg1.win 2).blk t).view.set := by
  have hi0 : (i 0).val < 3 := (i 0).isLt
  have hi1 : (i 1).val < 131072 := (i 1).isLt
  obtain ⟨t, ht⟩ := index_onto1 ⟨(i 1).val / 8192, by omega⟩
  have q0 : win1_2.index t (0 : Fin 2) = 0 := congrFun ht 0
  have q1 : win1_2.index t (1 : Fin 2) = (i 1).val / 8192 := congrFun ht 1
  refine ⟨t, flush1_2 t, ?_⟩
  rw [mem_block1]
  intro a
  match a with
  | ⟨0, _⟩ => show win1_2.index t (0 : Fin 2) * 3 ≤ (i 0).val ∧ (i 0).val < win1_2.index t (0 : Fin 2) * 3 + 3; omega
  | ⟨1, _⟩ => show win1_2.index t (1 : Fin 2) * 8192 ≤ (i 1).val ∧ (i 1).val < win1_2.index t (1 : Fin 2) * 8192 + 8192; omega

/-- The force buffer after the region: the force of the derivatives and the weights as the region found them. -/
theorem final1 (c : Dev nD) :
    (dat1 V c).arrAt 2 cfg1.N = force (V c main_v1) (V c main_arg4) :=
  (dat1 V c).arrAt_eq_of_cover 2 (force (V c main_v1) (V c main_arg4)) (fun t _ => written1 V c t) covered1

end Cert.KernelIdeal.Named

end
-- ==== Proof.KernelValue.lean ====
/-
  The idealized kernel's run with both results named: the energy of the coefficients, weights and bias as launched,
  and the host chain (scatter-add onto the atoms) of the launched neighbour indices and of the force of the launched
  derivatives with their leading unit axis dropped. Each is the last boundary's contents walked back through the fold,
  then the region's final array.
-/
import proofs.«100715_j1975684956439_1_alg».proof.Proof.KernelRun
import proofs.«100715_j1975684956439_1_alg».proof.Proof.Fold
import proofs.«100715_j1975684956439_1_alg».proof.Proof.Region0
import proofs.«100715_j1975684956439_1_alg».proof.Proof.Region1

set_option maxRecDepth 16384

noncomputable section

namespace Cert.KernelIdeal.Named

open Cert.KernelIdeal Cert.KernelIdeal.Gen Cert.Forces
open Idealize.ShloMosaic Idealize.ShloMosaic.TcCoe
open Idealize.SL Idealize.SL.Sem

variable (m : (ℓ : Loc nD τ sig) → Buf (Elt Ideal) ℓ) (ρ : Dev nD → PrngReg)

/-- The energy's buffer ends at the energy of the launched arguments. -/
theorem value_energy (c : Dev nD) : W4 m ρ c (Proc.devRef .tc main_v0)
    = energy (m ((c : Thread nD τ).loc main_arg0)) (m ((c : Thread nD τ).loc main_arg4)) (m ((c : Thread nD τ).loc main_arg5)) :=
  (W4_main_v0 m ρ c).trans (final0 (V0 m ρ) c)

/-- The force buffer ends at the host chain of the launched indices and the force of the launched derivatives. -/
theorem value_force (c : Dev nD) : W4 m ρ c (Proc.devRef .tc main_v8)
    = hostTail (m ((c : Thread nD τ).loc main_arg3))
        (force (shapeCast S3x131072x64 (m ((c : Thread nD τ).loc main_arg1)) shapeCasts_S1x3x131072x64_S3x131072x64)
          (m ((c : Thread nD τ).loc main_arg4))) := by
  rw [W4_main_v8, final1 (V2 m ρ) c, V2_main_v1, V2_main_arg4]

/-- The run, both results named. -/
theorem run : θ_run defs (onTc (τ := τ) (main (F := Ideal))) ⟨m, fun _ => 0, ρ⟩ (fun r => ∀ c : Dev nD,
      r.2.mem ((c.tc : Thread nD τ).loc main_v0)
        = energy (m ((c : Thread nD τ).loc main_arg0)) (m ((c : Thread nD τ).loc main_arg4)) (m ((c : Thread nD τ).loc main_arg5))
      ∧ r.2.mem ((c.tc : Thread nD τ).loc main_v8)
        = hostTail (m ((c : Thread nD τ).loc main_arg3))
            (force (shapeCast S3x131072x64 (m ((c : Thread nD τ).loc main_arg1)) shapeCasts_S1x3x131072x64_S3x131072x64)
              (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (value_energy m ρ c), (h c).2.1.trans (value_force m ρ c), (h c).2.2⟩)
    (run_named m ρ)

end Cert.KernelIdeal.Named

end
-- ==== Proof.RefValue.lean ====
/-
  The reference's two results, stage by stage at an index, are the specification's functions of its arguments:

  * its energy is one sum over every coefficient times its descriptor's weight (from the zero it starts at),
    divided by 2048.0, plus the bias;
  * its per-pair force, before the scatter onto the atoms, is minus the sum over the 64 descriptors, read through the
    reshape that drops the derivatives' leading unit axis.
-/
import proofs.«100715_j1975684956439_1_alg».proof.Proof.Gen.ReferenceIdeal.Read
import proofs.«100715_j1975684956439_1_alg».proof.Proof.Spec

noncomputable section

open scoped BigOperators

namespace Cert.ReferenceIdeal.RefValue

open Cert.ReferenceIdeal Cert.ReferenceIdeal.Gen Cert.ReferenceIdeal.Read Cert.Forces
open Idealize.ShloMosaic Idealize.ShloMosaic.ValueIdx

/-- The weight the energy's product reads at a coefficient's index is its descriptor's. -/
theorem weight_index_energy (j : S1x2048x64.Idx) : idx_main_v0 (idx_main_v1 j) = wIdx (j 2).val (j 2).isLt :=
  funext fun a => by match a with | ⟨0, _⟩ => rfl | ⟨1, _⟩ => rfl

/-- The weight the force's product reads at a derivative's index is its descriptor's. -/
theorem weight_index_force (z : S1x3x131072x64.Idx) : idx_main_v7 (idx_main_v8 z) = wIdx (z 3).val (z 3).isLt :=
  funext fun a => by match a with | ⟨0, _⟩ => rfl | ⟨1, _⟩ => rfl

/-- The reference's energy is the specification's. -/
theorem energy_eq (x0 : FVec Ideal S1x2048x64 .f32) (x4 : FVec Ideal S1x64 .f32) (x5 : FVec Ideal S1 .f32) :
    val_main_v6 (F := Ideal) x0 x4 x5 = energy x0 x4 x5 := by
  funext i
  rw [val_main_v6_apply, val_main_v5_apply, val_main_v4_apply, val_main_v3_apply]
  simp only [val_main_v2_apply, val_main_v1_apply, val_main_v0_apply, val_main_cst_apply, val_main_cst_0_apply,
    weight_index_energy, Ideal.addf_def, Ideal.hostDivf_def, Ideal.mulf_def, Ideal.ofBits_def, Ideal.ofBits_zero_f32, zero_add]
  rfl

/-- The reference's per-pair force, before the scatter, is the specification's force of the derivatives with their
    leading unit axis dropped. -/
theorem force_eq (x1 : FVec Ideal S1x3x131072x64 .f32) (x4 : FVec Ideal S1x64 .f32)
    (h : S1x3x131072x64.ShapeCasts ⟨3, ![3, 131072, 64]⟩) :
    val_main_v12 (F := Ideal) x1 x4 = force (shapeCast ⟨3, ![3, 131072, 64]⟩ x1 h) x4 := by
  funext i
  rw [val_main_v12_apply, val_main_v11_apply, val_main_v10_apply]
  simp only [val_main_v9_apply, val_main_v8_apply, val_main_v7_apply, val_main_cst_1_apply, weight_index_force,
    Ideal.hostNegf_def, Ideal.negf_def, Ideal.mulf_def, Ideal.ofBits_def, Ideal.ofBits_zero_f32, zero_add]
  unfold force
  refine congrArg Neg.neg (Finset.sum_congr rfl fun k _ => ?_)
  have hi0 : (i 0).val < 3 := (i 0).isLt
  have hi1 : (i 1).val < 131072 := (i 1).isLt
  have hk : k.val < 64 := k.isLt
  have e : shapeCast ⟨3, ![3, 131072, 64]⟩ x1 h (dIdx i k.val k.isLt) = x1 (idx_main_v10 (idx_main_v12 i) k) :=
    shapeCast_apply x1 h _ _ (by
      rw [Shape.rowMajor_val_four, Shape.rowMajor_val_three]
      show ((0 * 3 + ((i 0).val * 131072 + (i 1).val) / 131072 % 3) * 131072 + ((i 0).val * 131072 + (i 1).val) % 131072) * 64 + k.val
        = ((i 0).val * 131072 + (i 1).val) * 64 + k.val
      omega)
  rw [e]

end Cert.ReferenceIdeal.RefValue

end
-- ==== Proof.lean ====
/-
  Energy and forces of a linear readout: the kernel against its reference, over the extended reals.

  Both programs compute, from coefficients `c`, their derivatives `x`, a row of weights `w`, a bias `b` and a neighbour index
  per pair,
    * the energy per atom `(Σ_{n, d} c[0, n, d] · w[0, d]) / 2048 + b[0]`, and
    * for every atom the sum, over the pairs whose neighbour index names it, of the pair's force
      `−Σ_d x[0, a, p, d] · w[0, d]` (component `a` by component).
  The kernel sums the energy's products first along the descriptors and then along the atoms, in one block; the reference
  sums them all at once: the same total, by commutativity and associativity alone. The kernel takes the per-pair forces
  8192 pairs at a time and subtracts each sum from zero where the reference negates it: the same number at every extended
  real. The scatter-add onto the atoms is the same host chain in both programs, applied to equal per-pair forces and the
  same indices. No step needs the inputs finite, so the precondition is never opened.

  The idealized kernel's ledger is empty (its text is the kernel's own, read at the extended reals), so `preserves` is
  trivial. The three frames are the programs' runs with the results dropped.
-/
import proofs.«100715_j1975684956439_1_alg».proof.Defs
import proofs.«100715_j1975684956439_1_alg».proof.Proof.Gen.Kernel
import proofs.«100715_j1975684956439_1_alg».proof.Proof.Gen.Kernel.Frame
import proofs.«100715_j1975684956439_1_alg».proof.Proof.Gen.KernelIdeal
import proofs.«100715_j1975684956439_1_alg».proof.Proof.Gen.KernelIdeal.Frame
import proofs.«100715_j1975684956439_1_alg».proof.Proof.Gen.ReferenceIdeal
import proofs.«100715_j1975684956439_1_alg».proof.Proof.Gen.ReferenceIdeal.Run
import proofs.«100715_j1975684956439_1_alg».proof.Proof.Gen.ReferenceIdeal.Read
import proofs.«100715_j1975684956439_1_alg».proof.Proof.Gen.Pre_finite_inputs
import proofs.«100715_j1975684956439_1_alg».proof.Proof.KernelValue
import proofs.«100715_j1975684956439_1_alg».proof.Proof.RefValue
import Idealize.ShloMosaic.Adequacy
import Idealize.ShloMosaic.Init

noncomputable section

namespace Cert.Proof

open Idealize.ShloMosaic Idealize.ShloMosaic.TcCoe Idealize.SL.Sem Cert.Forces

/-- The reference's last five host operations are the kernel program's last host stretch: the same chain of the
    neighbour indices and of the per-pair forces. -/
theorem reference_tail (x1 : FVec Ideal Cert.ReferenceIdeal.S1x3x131072x64 .f32) (x3 : IVec Cert.ReferenceIdeal.S131072 32) (x4 : FVec Ideal Cert.ReferenceIdeal.S1x64 .f32) :
    Cert.ReferenceIdeal.Read.val_main_v18 (F := Ideal) x1 x3 x4
      = Cert.KernelIdeal.Named.hostTail (F := Ideal) x3 (Cert.ReferenceIdeal.Read.val_main_v12 (F := Ideal) x1 x4) := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- Both idealized programs end with the energy and with the scattered forces of the arguments they agree on. -/
theorem algebraic : Cert.algebraic_KernelIdeal_ReferenceIdeal := by
  intro m ρ m' ρ' _ hagree
  refine ⟨fun c => energy (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.KernelIdeal.Named.hostTail (m ((c.tc : Thread Cert.KernelIdeal.nD Cert.KernelIdeal.τ).loc Cert.KernelIdeal.main_arg3))
      (force (shapeCast Cert.KernelIdeal.S3x131072x64 (m ((c.tc : Thread Cert.KernelIdeal.nD Cert.KernelIdeal.τ).loc Cert.KernelIdeal.main_arg1)) Cert.KernelIdeal.Gen.shapeCasts_S1x3x131072x64_S3x131072x64) (m ((c.tc : Thread Cert.KernelIdeal.nD Cert.KernelIdeal.τ).loc Cert.KernelIdeal.main_arg4))),
    Cert.KernelIdeal.Named.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v6_eq, Cert.ReferenceIdeal.RefValue.energy_eq, (hagree c).1, (hagree c).2.2.2.2.1, (hagree c).2.2.2.2.2]
  · rw [Cert.ReferenceIdeal.Read.val_main_v18_eq, reference_tail,
      Cert.ReferenceIdeal.RefValue.force_eq _ _ Cert.KernelIdeal.Gen.shapeCasts_S1x3x131072x64_S3x131072x64,
      (hagree c).2.1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
